-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x12x64 : Shape := ⟨4, ![1, 2048, 12, 64]⟩
abbrev S12x2048x2048 : Shape := ⟨3, ![12, 2048, 2048]⟩
abbrev S_ : Shape := ⟨0, ![]⟩

class Facts : Prop where
  bcast_S_S1x2048x12x64 : S_.BroadcastsInDim S1x2048x12x64 (![] : Fin 0 → Fin S1x2048x12x64.rank)
  reducesTo_S1x2048x12x64_S_d0_1_2_3 : S1x2048x12x64.ReducesTo [0, 1, 2, 3] S_
  h_S_ : 0 < S_.numel
  bcast_S_S12x2048x2048 : S_.BroadcastsInDim S12x2048x2048 (![] : Fin 0 → Fin S12x2048x2048.rank)
  reducesTo_S12x2048x2048_S_d0_1_2 : S12x2048x2048.ReducesTo [0, 1, 2] S_

variable [Facts]

def fn_part1 {F : FTy → Type} [FloatOps F] (main_v13 : IVec S_ 1) (main_v16 : IVec S12x2048x2048 1) : IVec S_ 1 :=
  let main_c_5 : IVec S_ 1 := constantI S_ 1 1#1
  let main_v17 : IVec S_ 1 := (fun x v => Host.reduce IntOp.andi x v reducesTo_S12x2048x2048_S_d0_1_2 h_S_) main_v16 main_c_5
  let main_v18 : IVec S_ 1 := andi main_v13 main_v17
  main_v18

def fn {F : FTy → Type} [FloatOps F] (main_arg0 : FVec F S1x2048x12x64 .f32) (main_arg1 : FVec F S1x2048x12x64 .f32) (main_arg2 : FVec F S1x2048x12x64 .f32) (main_arg3 : FVec F S12x2048x2048 .f32) : IVec S_ 1 :=
  let main_v0 : FVec F S1x2048x12x64 .f32 := Host.absf main_arg0
  let main_cst : FVec F S_ .f32 := constant S_ .f32 0x7F800000#32
  let main_v1 : FVec F S1x2048x12x64 .f32 := broadcastInDim S1x2048x12x64 ![] bcast_S_S1x2048x12x64 main_cst
  let main_v2 : IVec S1x2048x12x64 1 := cmpf .olt main_v0 main_v1
  let main_c : IVec S_ 1 := constantI S_ 1 1#1
  let main_v3 : IVec S_ 1 := (fun x v => Host.reduce IntOp.andi x v reducesTo_S1x2048x12x64_S_d0_1_2_3 h_S_) main_v2 main_c
  let main_v4 : FVec F S1x2048x12x64 .f32 := Host.absf main_arg1
  let main_cst_0 : FVec F S_ .f32 := constant S_ .f32 0x7F800000#32
  let main_v5 : FVec F S1x2048x12x64 .f32 := broadcastInDim S1x2048x12x64 ![] bcast_S_S1x2048x12x64 main_cst_0
  let main_v6 : IVec S1x2048x12x64 1 := cmpf .olt main_v4 main_v5
  let main_c_1 : IVec S_ 1 := constantI S_ 1 1#1
  let main_v7 : IVec S_ 1 := (fun x v => Host.reduce IntOp.andi x v reducesTo_S1x2048x12x64_S_d0_1_2_3 h_S_) main_v6 main_c_1
  let main_v8 : IVec S_ 1 := andi main_v3 main_v7
  let main_v9 : FVec F S1x2048x12x64 .f32 := Host.absf main_arg2
  let main_cst_2 : FVec F S_ .f32 := constant S_ .f32 0x7F800000#32
  let main_v10 : FVec F S1x2048x12x64 .f32 := broadcastInDim S1x2048x12x64 ![] bcast_S_S1x2048x12x64 main_cst_2
  let main_v11 : IVec S1x2048x12x64 1 := cmpf .olt main_v9 main_v10
  let main_c_3 : IVec S_ 1 := constantI S_ 1 1#1
  let main_v12 : IVec S_ 1 := (fun x v => Host.reduce IntOp.andi x v reducesTo_S1x2048x12x64_S_d0_1_2_3 h_S_) main_v11 main_c_3
  let main_v13 : IVec S_ 1 := andi main_v8 main_v12
  let main_v14 : FVec F S12x2048x2048 .f32 := Host.absf main_arg3
  let main_cst_4 : FVec F S_ .f32 := constant S_ .f32 0x7F800000#32
  let main_v15 : FVec F S12x2048x2048 .f32 := broadcastInDim S12x2048x2048 ![] bcast_S_S12x2048x2048 main_cst_4
  let main_v16 : IVec S12x2048x2048 1 := cmpf .olt main_v14 main_v15
  fn_part1 (F := F) main_v13 main_v16
-- ==== Kernel.lean ====
abbrev S1x2048x12x64 : Shape := ⟨4, ![1, 2048, 12, 64]⟩
abbrev S12x2048x2048 : Shape := ⟨3, ![12, 2048, 2048]⟩
abbrev S1x12x2048x64 : Shape := ⟨4, ![1, 12, 2048, 64]⟩
abbrev S12x2048x64 : Shape := ⟨3, ![12, 2048, 64]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S2048x12x64 : Shape := ⟨3, ![2048, 12, 64]⟩
abbrev S2048x1x768 : Shape := ⟨3, ![2048, 1, 768]⟩

abbrev nBuf : Space → Nat
  | .hbm => 13
  | .vmem => 10
  | .smem => 0
  | _ => 0

abbrev bufTy : (tb : Table) → Fin (tcTables nBuf tb) → BufTy
  | .hbm, ⟨0, _⟩ => ⟨S1x2048x12x64, .f32⟩
  | .hbm, ⟨1, _⟩ => ⟨S1x2048x12x64, .f32⟩
  | .hbm, ⟨2, _⟩ => ⟨S1x2048x12x64, .f32⟩
  | .hbm, ⟨3, _⟩ => ⟨S12x2048x2048, .f32⟩
  | .hbm, ⟨4, _⟩ => ⟨S1x12x2048x64, .f32⟩
  | .hbm, ⟨5, _⟩ => ⟨S12x2048x64, .f32⟩
  | .hbm, ⟨6, _⟩ => ⟨S1x12x2048x64, .f32⟩
  | .hbm, ⟨7, _⟩ => ⟨S12x2048x64, .f32⟩
  | .hbm, ⟨8, _⟩ => ⟨S1x12x2048x64, .f32⟩
  | .hbm, ⟨9, _⟩ => ⟨S12x2048x64, .f32⟩
  | .hbm, ⟨10, _⟩ => ⟨S12x2048x64, .f32⟩
  | .hbm, ⟨11, _⟩ => ⟨S2048x12x64, .f32⟩
  | .hbm, ⟨12, _⟩ => ⟨S2048x1x768, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x2048, .f32⟩
  | .local _ .vmem, ⟨7, _⟩ => ⟨S1x256x2048, .f32⟩
  | .local _ .vmem, ⟨8, _⟩ => ⟨S1x256x64, .f32⟩
  | .local _ .vmem, ⟨9, _⟩ => ⟨S1x256x64, .f32⟩
  | _, _ => ⟨S1x2048x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1x2048x12x64_S1x12x2048x64_0_2_1_3 : S1x2048x12x64.Transposes [0, 2, 1, 3] S1x12x2048x64
  shapeCasts_S1x12x2048x64_S12x2048x64 : S1x12x2048x64.ShapeCasts S12x2048x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x64_S1x256x64 : S256x64.ShapeCasts S1x256x64
  transposes_S12x2048x64_S2048x12x64_1_0_2 : S12x2048x64.Transposes [1, 0, 2] S2048x12x64
  shapeCasts_S2048x12x64_S2048x1x768 : S2048x12x64.ShapeCasts S2048x1x768
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S12x2048x64.size a
  hwx0_0 : ∀ i : grid0.Coords, EltTy.bits .f32 = 32 ∨ (Rect.block (s := S12x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S12x2048x64.size a
  hwx0_1 : ∀ i : grid0.Coords, EltTy.bits .f32 = 32 ∨ (Rect.block (s := S12x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S12x2048x64.size a
  hwx0_2 : ∀ i : grid0.Coords, EltTy.bits .f32 = 32 ∨ (Rect.block (s := S12x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S12x2048x2048.size a
  hwx0_3 : ∀ i : grid0.Coords, EltTy.bits .f32 = 32 ∨ (Rect.block (s := S12x2048x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S12x2048x64.size a
  hwx0_4 : ∀ i : grid0.Coords, EltTy.bits .f32 = 32 ∨ (Rect.block (s := S12x2048x64) S1x256x64.size (cc0_transform_4 i) (hinb0_4 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v1) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x2048x12x64 : Shape := ⟨4, ![1, 2048, 12, 64]⟩
abbrev S12x2048x2048 : Shape := ⟨3, ![12, 2048, 2048]⟩
abbrev S1x12x2048x64 : Shape := ⟨4, ![1, 12, 2048, 64]⟩
abbrev S12x2048x64 : Shape := ⟨3, ![12, 2048, 64]⟩
abbrev S_ : Shape := ⟨0, ![]⟩
abbrev S12x2048 : Shape := ⟨2, ![12, 2048]⟩
abbrev S12x2048x1 : Shape := ⟨3, ![12, 2048, 1]⟩
abbrev S2048x12x64 : Shape := ⟨3, ![2048, 12, 64]⟩
abbrev S2048x1x768 : Shape := ⟨3, ![2048, 1, 768]⟩

abbrev nBuf : Space → Nat
  | .hbm => 45
  | .vmem => 0
  | .smem => 0
  | _ => 0

abbrev bufTy : (tb : Table) → Fin (tcTables nBuf tb) → BufTy
  | .hbm, ⟨0, _⟩ => ⟨S1x2048x12x64, .f32⟩
  | .hbm, ⟨1, _⟩ => ⟨S1x2048x12x64, .f32⟩
  | .hbm, ⟨2, _⟩ => ⟨S1x2048x12x64, .f32⟩
  | .hbm, ⟨3, _⟩ => ⟨S12x2048x2048, .f32⟩
  | .hbm, ⟨4, _⟩ => ⟨S1x12x2048x64, .f32⟩
  | .hbm, ⟨5, _⟩ => ⟨S12x2048x64, .f32⟩
  | .hbm, ⟨6, _⟩ => ⟨S1x12x2048x64, .f32⟩
  | .hbm, ⟨7, _⟩ => ⟨S12x2048x64, .f32⟩
  | .hbm, ⟨8, _⟩ => ⟨S1x12x2048x64, .f32⟩
  | .hbm, ⟨9, _⟩ => ⟨S12x2048x64, .f32⟩
  | .hbm, ⟨10, _⟩ => ⟨S12x2048x2048, .f32⟩
  | .hbm, ⟨11, _⟩ => ⟨S_, .f32⟩
  | .hbm, ⟨12, _⟩ => ⟨S12x2048x2048, .f32⟩
  | .hbm, ⟨13, _⟩ => ⟨S12x2048x2048, .f32⟩
  | .hbm, ⟨14, _⟩ => ⟨S_, .f32⟩
  | .hbm, ⟨15, _⟩ => ⟨S12x2048x2048, .f32⟩
  | .hbm, ⟨16, _⟩ => ⟨S12x2048x2048, .i1⟩
  | .hbm, ⟨17, _⟩ => ⟨S_, .f32⟩
  | .hbm, ⟨18, _⟩ => ⟨S_, .f32⟩
  | .hbm, ⟨19, _⟩ => ⟨S12x2048x2048, .f32⟩
  | .hbm, ⟨20, _⟩ => ⟨S12x2048x2048, .f32⟩
  | .hbm, ⟨21, _⟩ => ⟨S_, .f32⟩
  | .hbm, ⟨22, _⟩ => ⟨S12x2048, .f32⟩
  | .hbm, ⟨23, _⟩ => ⟨S_, .f32⟩
  | .hbm, ⟨24, _⟩ => ⟨S12x2048, .f32⟩
  | .hbm, ⟨25, _⟩ => ⟨S12x2048, .f32⟩
  | .hbm, ⟨26, _⟩ => ⟨S12x2048x1, .f32⟩
  | .hbm, ⟨27, _⟩ => ⟨S12x2048x2048, .f32⟩
  | .hbm, ⟨28, _⟩ => ⟨S12x2048x2048, .f32⟩
  | .hbm, ⟨29, _⟩ => ⟨S12x2048x2048, .f32⟩
  | .hbm, ⟨30, _⟩ => ⟨S_, .f32⟩
  | .hbm, ⟨31, _⟩ => ⟨S12x2048, .f32⟩
  | .hbm, ⟨32, _⟩ => ⟨S12x2048x1, .f32⟩
  | .hbm, ⟨33, _⟩ => ⟨S12x2048x2048, .f32⟩
  | .hbm, ⟨34, _⟩ => ⟨S12x2048x2048, .f32⟩
  | .hbm, ⟨35, _⟩ => ⟨S_, .f32⟩
  | .hbm, ⟨36, _⟩ => ⟨S12x2048x2048, .f32⟩
  | .hbm, ⟨37, _⟩ => ⟨S12x2048x2048, .i1⟩
  | .hbm, ⟨38, _⟩ => ⟨S_, .f32⟩
  | .hbm, ⟨39, _⟩ => ⟨S_, .f32⟩
  | .hbm, ⟨40, _⟩ => ⟨S12x2048x2048, .f32⟩
  | .hbm, ⟨41, _⟩ => ⟨S12x2048x2048, .f32⟩
  | .hbm, ⟨42, _⟩ => ⟨S12x2048x64, .f32⟩
  | .hbm, ⟨43, _⟩ => ⟨S2048x12x64, .f32⟩
  | .hbm, ⟨44, _⟩ => ⟨S2048x1x768, .f32⟩
  | _, _ => ⟨S1x2048x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_call1_v0 : Ref sig .tc := ⟨.hbm, 39, rfl⟩
abbrev main_call1_v1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  transposes_S1x2048x12x64_S1x12x2048x64_0_2_1_3 : S1x2048x12x64.Transposes [0, 2, 1, 3] S1x12x2048x64
  shapeCasts_S1x12x2048x64_S12x2048x64 : S1x12x2048x64.ShapeCasts S12x2048x64
  bcast_S_S12x2048x2048 : S_.BroadcastsInDim S12x2048x2048 (![] : Fin 0 → Fin S12x2048x2048.rank)
  reducesTo_S12x2048x2048_S12x2048_d2 : S12x2048x2048.ReducesTo [2] S12x2048
  h_S_ : 0 < S_.numel
  bcast_S_S12x2048 : S_.BroadcastsInDim S12x2048 (![] : Fin 0 → Fin S12x2048.rank)
  bcast_S12x2048_S12x2048x1_0_1 : S12x2048.BroadcastsInDim S12x2048x1 (![0, 1] : Fin 2 → Fin S12x2048x1.rank)
  bcast_S12x2048x1_S12x2048x2048_0_1_2 : S12x2048x1.BroadcastsInDim S12x2048x2048 (![0, 1, 2] : Fin 3 → Fin S12x2048x2048.rank)
  transposes_S12x2048x64_S2048x12x64_1_0_2 : S12x2048x64.Transposes [1, 0, 2] S2048x12x64
  shapeCasts_S2048x12x64_S2048x1x768 : S2048x12x64.ShapeCasts S2048x1x768
  dot_S12x2048x64_S12x2048x64_S12x2048x2048_2_2_1_1_0_0_wf : DotDims.WF S12x2048x64 S12x2048x64 S12x2048x2048 [2] [2] [1] [1] [0] [0]
  dot_S12x2048x2048_S12x2048x64_S12x2048x64_2_1_1_2_0_0_wf : DotDims.WF S12x2048x2048 S12x2048x64 S12x2048x64 [2] [1] [1] [2] [0] [0]

variable [Facts₀]

def dot_S12x2048x64_S12x2048x64_S12x2048x2048_2_2_1_1_0_0 : DotDims S12x2048x64 S12x2048x64 S12x2048x2048 where
  lhsContracting := [2]
  rhsContracting := [2]
  lhsNonContracting := [1]
  rhsNonContracting := [1]
  lhsBatch := [0]
  rhsBatch := [0]
  wf := dot_S12x2048x64_S12x2048x64_S12x2048x2048_2_2_1_1_0_0_wf
def dot_S12x2048x2048_S12x2048x64_S12x2048x64_2_1_1_2_0_0 : DotDims S12x2048x2048 S12x2048x64 S12x2048x64 where
  lhsContracting := [2]
  rhsContracting := [1]
  lhsNonContracting := [1]
  rhsNonContracting := [2]
  lhsBatch := [0]
  rhsBatch := [0]
  wf := dot_S12x2048x2048_S12x2048x64_S12x2048x64_2_1_1_2_0_0_wf

class Facts : Prop extends Facts₀ where

variable [Facts]
-- ==== Proof.AttnSpec.lean ====
/-
  Masked softmax attention, one output element at a time, on the extended reals.

  For one head and one query position the inputs are the query row `q : Fin 64 → EReal`, the head's key and value
  matrices `K V : Fin 2048 → Fin 64 → EReal` and the mask row `μ : Fin 2048 → EReal`. A key position `t` is KEPT when
  `μ t > 0`. Its logit is `(∑ e, q e · K t e) · 0.125` when kept and the finite stand-in `-1e9` otherwise; the row's
  top is the maximum of the logits from `-∞`; a position's numerator is `exp (logit − top)`, the denominator the sum
  of the numerators; the weight of a kept position is numerator / denominator and of any other `0`; the output at
  feature `d` is `∑ t, weight t · V t d`.

  `attention` reads that row function at every index `(h, r, d)` of a `[12, 2048, 64]` array of heads, positions and
  features, the mask a `[12, 2048, 2048]` array.
-/
import Idealize.ShloMosaic.PureOps.Ideal
import Idealize.ShloMosaic.Lib.ValueIdx

noncomputable section

namespace MaskedAttention

open Idealize.ShloMosaic Idealize.ShloMosaic.ValueIdx

section Row
variable (q : Fin 64 → EReal) (K V : Fin 2048 → Fin 64 → EReal) (μ : Fin 2048 → EReal)

/-- Key position `t` is kept: the mask there is above zero. -/
def keep (t : Fin 2048) : BitVec 1 := Ideal.cmp .ogt (μ t) (Ideal.ofBits .f32 0x00000000#32)

/-- The scaled score of a kept position, the stand-in `-1e9` of any other. -/
def logit (t : Fin 2048) : EReal :=
  Scalar.select (keep μ t) ((∑ e : Fin 64, q e * K t e) * Ideal.ofBits .f32 0x3E000000#32) (Ideal.ofBits .f32 0xCE6E6B28#32)

/-- The row's largest logit, from `-∞`. -/
def top : EReal := (Finset.univ : Finset (Fin 2048)).fold max ⊥ (logit q K μ)

/-- `exp (logit − top)`. -/
def numer (t : Fin 2048) : EReal := Ideal.exp (logit q K μ t - top q K μ)

/-- The sum of the numerators over the key positions. -/
def denom : EReal := ∑ t : Fin 2048, numer q K μ t

/-- The softmax weight of a kept position, `0` of any other. -/
def weight (t : Fin 2048) : EReal :=
  Scalar.select (keep μ t) (Ideal.div (numer q K μ t) (denom q K μ)) (Ideal.ofBits .f32 0x00000000#32)

/-- The attention output at feature `d`: the weighted sum of the value rows. -/
def attendRow (d : Fin 64) : EReal := ∑ t : Fin 2048, weight q K μ t * V t d

end Row

/-- Heads × positions × features. -/
abbrev HPF : Shape := ⟨3, ![12, 2048, 64]⟩
/-- Heads × query positions × key positions. -/
abbrev HQK : Shape := ⟨3, ![12, 2048, 2048]⟩

/-- Masked softmax attention of whole arrays: at `(h, r, d)` the row function of head `h`'s query row `r`, its key
    and value matrices and the mask row `(h, r)`. -/
def attention (Q Kk Vv : HPF.Idx → EReal) (M : HQK.Idx → EReal) : HPF.Idx → EReal := fun i =>
  attendRow (fun e => Q (ix3 (i 0) (i 1) e)) (fun t e => Kk (ix3 (i 0) t e)) (fun t e => Vv (ix3 (i 0) t e))
    (fun t => M (ix3 (i 0) (i 1) t)) (i 2)

theorem attention_apply (Q Kk Vv : HPF.Idx → EReal) (M : HQK.Idx → EReal) (h : Fin 12) (r : Fin 2048) (d : Fin 64) :
    attention Q Kk Vv M (ix3 h r d)
      = attendRow (fun e => Q (ix3 h r e)) (fun t e => Kk (ix3 h t e)) (fun t e => Vv (ix3 h t e)) (fun t => M (ix3 h r t)) d := rfl

end MaskedAttention

end
-- ==== Proof.Consts.lean ====
/-
  The float constants the two programs spell, as the extended reals their bit patterns denote: the kernel's
  scale 0.125 (the reciprocal of the square root of the head dimension 64, an exact dyadic), the reference's
  divisor 8.0, the zero both use, and the negative infinity both start a row's maximum from.
-/
import Idealize.ShloMosaic.PureOps.Ideal

noncomputable section

namespace MaskedAttention.Consts

open Idealize.ShloMosaic

/-- The pattern of `+0.0` denotes `0`. -/
theorem ofBits_zero : Ideal.ofBits .f32 0x00000000#32 = 0 := by
  simp [Ideal.ofBits, Ideal.ieee]

/-- The pattern of `8.0` denotes the real `8`. -/
theorem ofBits_eight : Ideal.ofBits .f32 0x41000000#32 = ((8 : ℝ) : EReal) := by
  simp [Ideal.ofBits, Ideal.ieee, -EReal.coe_mul]; norm_num

/-- The pattern of `0.125` denotes the real `1/8`. -/
theorem ofBits_eighth : Ideal.ofBits .f32 0x3E000000#32 = ((1 / 8 : ℝ) : EReal) := by
  simp [Ideal.ofBits, Ideal.ieee, -EReal.coe_mul]; norm_num

/-- The pattern of negative infinity denotes the bottom of the extended reals. -/
theorem ofBits_neg_inf : Ideal.ofBits .f32 0xFF800000#32 = ⊥ := by
  simp [Ideal.ofBits, Ideal.ieee]

/-- Dividing by the reference's `8.0` is multiplying by the kernel's `0.125`, on every extended real. -/
theorem div_eight (x : EReal) :
    Ideal.div x (Ideal.ofBits .f32 0x41000000#32) = x * Ideal.ofBits .f32 0x3E000000#32 := by
  rw [ofBits_eight, ofBits_eighth, Ideal.div_coe (by norm_num : (8 : ℝ) ≠ 0)]

end MaskedAttention.Consts

end
-- ==== Proof.LibKeepdims.lean ====
/-
  Column ("keepdims") layout operations read at an index given by coordinates: a vector of `a` entries cast to an
  `[a, 1]` column, and an `[a, 1]` column broadcast along the rows of an `[a, b]` matrix — what a row reduction kept
  as a column (`jnp.max(…, axis=-1, keepdims=True)`) lowers to on the vector unit — and the source index a reduction
  over the columns of a matrix reads for a row and a column.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a]` array cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Reducing an `[a, b]` matrix over its columns: the source index over row `i` at column `k` is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

end Idealize.ShloMosaic.ValueIdx
-- ==== Proof.KernelRow.lean ====
/-
  The kernel body's arithmetic on one grid point's blocks, read stage by stage at an index. The point holds a
  `[1, 256, 64]` block of queries, the head's whole `[1, 2048, 64]` keys and values, and a `[1, 256, 2048]` block of
  the mask; the body drops the unit axis, forms the 256 × 2048 scores on the matrix unit, scales and masks them,
  takes each row's maximum and sum as columns broadcast back along the row, and multiplies the masked weights with
  the values. Row `r`, feature `d` of what it stores is the row function `attendRow` of the block's query row `r`, the
  key and value matrices, and the block's mask row `r`.
-/
import proofs.«146029_g20229295964910_cont_8to1_1205_4_alg».proof.Proof.Gen.KernelIdeal.Skeleton
import proofs.«146029_g20229295964910_cont_8to1_1205_4_alg».proof.Proof.AttnSpec
import proofs.«146029_g20229295964910_cont_8to1_1205_4_alg».proof.Proof.Consts
import proofs.«146029_g20229295964910_cont_8to1_1205_4_alg».proof.Proof.LibKeepdims
import Idealize.ShloMosaic.PureOps.Ideal.Laws
import Idealize.ShloMosaic.Lib.ValueIdx
import Idealize.ShloMosaic.Lib.ValueLayout

noncomputable section

namespace MaskedAttention.Kernel

open Idealize.ShloMosaic Idealize.ShloMosaic.ValueIdx
open Cert.KernelIdeal Cert.KernelIdeal.Gen

/-! ## The two matrix products read at an index -/

theorem qk_lhs_0 (j : S256x2048.Idx) (q : dot_S256x64_S2048x64_S256x2048_1_1_0_0_n_n.contr.Idx) :
    (dot_S256x64_S2048x64_S256x2048_1_1_0_0_n_n.lhsIdx j q 0).val = (j 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem qk_lhs_1 (j : S256x2048.Idx) (q : dot_S256x64_S2048x64_S256x2048_1_1_0_0_n_n.contr.Idx) :
    (dot_S256x64_S2048x64_S256x2048_1_1_0_0_n_n.lhsIdx j q 1).val = (q ⟨0, by decide⟩).val :=
  dot_S256x64_S2048x64_S256x2048_1_1_0_0_n_n.lhsIdx_val_of_single rfl j q
theorem qk_rhs_0 (j : S256x2048.Idx) (q : dot_S256x64_S2048x64_S256x2048_1_1_0_0_n_n.contr.Idx) :
    (dot_S256x64_S2048x64_S256x2048_1_1_0_0_n_n.rhsIdx j q 0).val = (j 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem qk_rhs_1 (j : S256x2048.Idx) (q : dot_S256x64_S2048x64_S256x2048_1_1_0_0_n_n.contr.Idx) :
    (dot_S256x64_S2048x64_S256x2048_1_1_0_0_n_n.rhsIdx j q 1).val = (q ⟨0, by decide⟩).val :=
  dot_S256x64_S2048x64_S256x2048_1_1_0_0_n_n.rhsIdx_val_of_single rfl j q

/-- Queries against keys, both contracted over their features, into a zero accumulator: at `(r, t)` the sum over the 64
    features of query row `r` times key row `t`. -/
theorem scores_apply (y0 : FVec Ideal S256x64 .f32) (y1 : FVec Ideal S2048x64 .f32) (r : Fin 256) (t : Fin 2048) :
    matmul dot_S256x64_S2048x64_S256x2048_1_1_0_0_n_n none y0 y1 (constant S256x2048 .f32 0x00000000#32) (ix2 r t)
      = ∑ e : Fin 64, y0 (ix2 r e) * y1 (ix2 t e) := by
  simp only [matmul]
  rw [Ideal.matmul_constant_zero_apply, ← Equiv.sum_comp (ValueIdx.contrEquiv1 dot_S256x64_S2048x64_S256x2048_1_1_0_0_n_n 64 rfl rfl).symm]
  refine Finset.sum_congr rfl fun k _ => ?_
  have hk := ValueIdx.contrEquiv1_symm_val dot_S256x64_S2048x64_S256x2048_1_1_0_0_n_n 64 rfl rfl k
  have el : dot_S256x64_S2048x64_S256x2048_1_1_0_0_n_n.lhsIdx (ix2 r t) ((ValueIdx.contrEquiv1 dot_S256x64_S2048x64_S256x2048_1_1_0_0_n_n 64 rfl rfl).symm k) = ix2 r k := funext fun a => Fin.ext (by
    match a with
    | ⟨0, _⟩ => exact qk_lhs_0 _ _
    | ⟨1, _⟩ => exact (qk_lhs_1 _ _).trans hk)
  have er : dot_S256x64_S2048x64_S256x2048_1_1_0_0_n_n.rhsIdx (ix2 r t) ((ValueIdx.contrEquiv1 dot_S256x64_S2048x64_S256x2048_1_1_0_0_n_n 64 rfl rfl).symm k) = ix2 t k := funext fun a => Fin.ext (by
    match a with
    | ⟨0, _⟩ => exact qk_rhs_0 _ _
    | ⟨1, _⟩ => exact (qk_rhs_1 _ _).trans hk)
  rw [el, er]

theorem wv_lhs_0 (j : S256x64.Idx) (q : dot_S256x2048_S2048x64_S256x64_1_0_0_1_n_n.contr.Idx) :
    (dot_S256x2048_S2048x64_S256x64_1_0_0_1_n_n.lhsIdx j q 0).val = (j 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem wv_lhs_1 (j : S256x64.Idx) (q : dot_S256x2048_S2048x64_S256x64_1_0_0_1_n_n.contr.Idx) :
    (dot_S256x2048_S2048x64_S256x64_1_0_0_1_n_n.lhsIdx j q 1).val = (q ⟨0, by decide⟩).val :=
  dot_S256x2048_S2048x64_S256x64_1_0_0_1_n_n.lhsIdx_val_of_single rfl j q
theorem wv_rhs_0 (j : S256x64.Idx) (q : dot_S256x2048_S2048x64_S256x64_1_0_0_1_n_n.contr.Idx) :
    (dot_S256x2048_S2048x64_S256x64_1_0_0_1_n_n.rhsIdx j q 0).val = (q ⟨0, by decide⟩).val :=
  dot_S256x2048_S2048x64_S256x64_1_0_0_1_n_n.rhsIdx_val_of_single rfl j q
theorem wv_rhs_1 (j : S256x64.Idx) (q : dot_S256x2048_S2048x64_S256x64_1_0_0_1_n_n.contr.Idx) :
    (dot_S256x2048_S2048x64_S256x64_1_0_0_1_n_n.rhsIdx j q 1).val = (j 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Weights against values, contracted over the key positions, into a zero accumulator: at `(r, d)` the sum over the 2048
    positions of weight `(r, t)` times value `(t, d)`. -/
theorem mix_apply (y0 : FVec Ideal S256x2048 .f32) (y1 : FVec Ideal S2048x64 .f32) (r : Fin 256) (d : Fin 64) :
    matmul dot_S256x2048_S2048x64_S256x64_1_0_0_1_n_n none y0 y1 (constant S256x64 .f32 0x00000000#32) (ix2 r d)
      = ∑ t : Fin 2048, y0 (ix2 r t) * y1 (ix2 t d) := by
  simp only [matmul]
  rw [Ideal.matmul_constant_zero_apply, ← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 r d) ((ValueIdx.contrEquiv1 dot_S256x2048_S2048x64_S256x64_1_0_0_1_n_n 2048 rfl rfl).symm k) = ix2 r k := funext fun a => Fin.ext (by
    match a with
    | ⟨0, _⟩ => exact wv_lhs_0 _ _
    | ⟨1, _⟩ => exact (wv_lhs_1 _ _).trans hk)
  have er : dot_S256x2048_S2048x64_S256x64_1_0_0_1_n_n.rhsIdx (ix2 r d) ((ValueIdx.contrEquiv1 dot_S256x2048_S2048x64_S256x64_1_0_0_1_n_n 2048 rfl rfl).symm k) = ix2 k d := funext fun a => Fin.ext (by
    match a with
    | ⟨0, _⟩ => exact (wv_rhs_0 _ _).trans hk
    | ⟨1, _⟩ => exact wv_rhs_1 _ _)
  rw [el, er]

/-! ## The body's stages as vectors of the blocks -/

variable (x0 : FVec Ideal S1x256x64 .f32) (x1 x2 : FVec Ideal S1x2048x64 .f32) (x3 : FVec Ideal S1x256x2048 .f32)

/-- The 256 × 2048 masked, scaled scores of the point. -/
def logits : FVec Ideal S256x2048 .f32 :=
  select (cmpf .ogt (shapeCast S256x2048 x3 shapeCasts_S1x256x2048_S256x2048) (broadcast S256x2048 (Scalar.ofBits .f32 0x00000000#32)))
    (mulf (matmul dot_S256x64_S2048x64_S256x2048_1_1_0_0_n_n none (shapeCast S256x64 x0 shapeCasts_S1x256x64_S256x64)
        (shapeCast S2048x64 x1 shapeCasts_S1x2048x64_S2048x64) (constant S256x2048 .f32 0x00000000#32))
      (broadcast S256x2048 (Scalar.ofBits .f32 0x3E000000#32)))
    (broadcast S256x2048 (Scalar.ofBits .f32 0xCE6E6B28#32))

/-- Each row's maximum. -/
def tops : FVec Ideal S256 .f32 :=
  multiReduction .maximumf [1] S256 (logits x0 x1 x3) 0xFF800000#32 reduces_S256x2048_S256 (.inl rfl) rfl

/-- The exponentials of the scores less their row's maximum. -/
def numers : FVec Ideal S256x2048 .f32 :=
  exp (subf (logits x0 x1 x3)
    (broadcastTo S256x2048 (shapeCast S256x1 (tops x0 x1 x3) shapeCasts_S256_S256x1) broadcasts_S256x1_S256x2048))

/-- Each row's sum of them. -/
def denoms : FVec Ideal S256 .f32 :=
  multiReduction .add [1] S256 (numers x0 x1 x3) 0x00000000#32 reduces_S256x2048_S256 (.inl rfl) rfl

/-- The masked quotients. -/
def weights : FVec Ideal S256x2048 .f32 :=
  select (cmpf .ogt (shapeCast S256x2048 x3 shapeCasts_S1x256x2048_S256x2048) (broadcast S256x2048 (Scalar.ofBits .f32 0x00000000#32)))
    (divf (numers x0 x1 x3)
      (broadcastTo S256x2048 (shapeCast S256x1 (denoms x0 x1 x3) shapeCasts_S256_S256x1) broadcasts_S256x1_S256x2048))
    (broadcast S256x2048 (Scalar.ofBits .f32 0x00000000#32))

/-- The body's stored value is the product of those weights with the values, the unit axis put back. -/
theorem payload_eq :
    k0_pay1 (F := Ideal) x0 x1 x2 x3
      = shapeCast S1x256x64 (matmul dot_S256x2048_S2048x64_S256x64_1_0_0_1_n_n none (weights x0 x1 x3)
          (shapeCast S2048x64 x2 shapeCasts_S1x2048x64_S2048x64) (constant S256x64 .f32 0x00000000#32)) shapeCasts_S256x64_S1x256x64 := rfl

/-! ## The stages at an index -/

/-- The block's query row `r`. -/
abbrev qrow (r : Fin 256) : Fin 64 → EReal := fun e => x0 (ix3 (0 : Fin 1) r e)
/-- The head's key matrix. -/
abbrev kmat : Fin 2048 → Fin 64 → EReal := fun t e => x1 (ix3 (0 : Fin 1) t e)
/-- The head's value matrix. -/
abbrev vmat : Fin 2048 → Fin 64 → EReal := fun t e => x2 (ix3 (0 : Fin 1) t e)
/-- The block's mask row `r`. -/
abbrev mrow (r : Fin 256) : Fin 2048 → EReal := fun t => x3 (ix3 (0 : Fin 1) r t)

theorem logits_apply (r : Fin 256) (t : Fin 2048) :
    logits x0 x1 x3 (ix2 r t) = logit (qrow x0 r) (kmat x1) (mrow x3 r) t := by
  unfold logits
  rw [select_apply, cmpf_apply, broadcast_apply, mulf_apply, broadcast_apply, broadcast_apply, shapeCast_1ab_ab_apply, scores_apply]
  simp only [shapeCast_1ab_ab_apply]
  rfl

theorem tops_apply (r : Fin 256) : tops x0 x1 x3 (ix1 r) = top (qrow x0 r) (kmat x1) (mrow x3 r) := by
  unfold tops
  refine (Ideal.multiReduction_maximumf_single (logits x0 x1 x3) 0xFF800000#32 reduces_S256x2048_S256 (.inl rfl) rfl (ix1 r)).trans ?_
  have hf : (logits x0 x1 x3 ∘ reduces_S256x2048_S256.lift (ix1 r)) = logit (qrow x0 r) (kmat x1) (mrow x3 r) :=
    funext fun (k : Fin 2048) => by
      show logits x0 x1 x3 (reduces_S256x2048_S256.lift (ix1 r) k) = _
      rw [lift_row, logits_apply]
  rw [hf]
  show Finset.univ.fold max (Ideal.ofBits .f32 0xFF800000#32) _ = _
  rw [Consts.ofBits_neg_inf]
  rfl

theorem numers_apply (r : Fin 256) (t : Fin 2048) :
    numers x0 x1 x3 (ix2 r t) = numer (qrow x0 r) (kmat x1) (mrow x3 r) t := by
  unfold numers
  show Ideal.exp (logits x0 x1 x3 (ix2 r t)
    - broadcastTo S256x2048 (shapeCast S256x1 (tops x0 x1 x3) shapeCasts_S256_S256x1) broadcasts_S256x1_S256x2048 (ix2 r t)) = _
  rw [broadcastTo_a1_ab_apply, shapeCast_a_a1_apply, logits_apply, tops_apply]
  rfl

theorem denoms_apply (r : Fin 256) : denoms x0 x1 x3 (ix1 r) = denom (qrow x0 r) (kmat x1) (mrow x3 r) := by
  unfold denoms denom
  refine (Ideal.multiReduction_add_single (numers x0 x1 x3) 0x00000000#32 reduces_S256x2048_S256 (.inl rfl) rfl (ix1 r)).trans ?_
  refine Finset.sum_congr rfl fun (k : Fin 2048) _ => ?_
  rw [lift_row, numers_apply]

theorem weights_apply (r : Fin 256) (t : Fin 2048) :
    weights x0 x1 x3 (ix2 r t) = weight (qrow x0 r) (kmat x1) (mrow x3 r) t := by
  unfold weights
  rw [select_apply, cmpf_apply, broadcast_apply, divf_apply, shapeCast_1ab_ab_apply,
    broadcastTo_a1_ab_apply, shapeCast_a_a1_apply, numers_apply, denoms_apply]
  rfl

/-- ROW `r`, FEATURE `d` OF WHAT THE BODY STORES: the attention row function of the point's blocks. -/
theorem payload_apply (r : Fin 256) (d : Fin 64) :
    k0_pay1 (F := Ideal) x0 x1 x2 x3 (ix3 (0 : Fin 1) r d) = attendRow (qrow x0 r) (kmat x1) (vmat x2) (mrow x3 r) d := by
  rw [payload_eq, shapeCast_ab_1ab_apply, mix_apply]
  unfold attendRow
  refine Finset.sum_congr rfl fun t _ => ?_
  rw [weights_apply, shapeCast_1ab_ab_apply]

end MaskedAttention.Kernel

end
-- ==== Proof.AttnWhole.lean ====
/-
  The whole computation both programs perform, as one function of the four argument arrays.

  The query, key and value arrive as `[1, 2048, 12, 64]` (batch, position, head, feature). Each is RE-LAID to
  `[12, 2048, 64]` (head, position, feature): the position and head axes swapped, the unit batch axis merged away.
  `attention` of the three re-laid arrays and the `[12, 2048, 2048]` mask is a `[12, 2048, 64]` array, which is SETTLED
  into the result `[2048, 1, 768]`: head and position swapped back, then each position's twelve heads of 64 features
  laid side by side.
-/
import proofs.«146029_g20229295964910_cont_8to1_1205_4_alg».proof.Proof.AttnSpec
import Idealize.ShloMosaic.PureOps.ShapeOps

noncomputable section

namespace MaskedAttention

open Idealize.ShloMosaic

/-- Batch × positions × heads × features, as the arguments arrive. -/
abbrev BPHF : Shape := ⟨4, ![1, 2048, 12, 64]⟩
/-- Batch × heads × positions × features. -/
abbrev BHPF : Shape := ⟨4, ![1, 12, 2048, 64]⟩
/-- Positions × heads × features. -/
abbrev PHF : Shape := ⟨3, ![2048, 12, 64]⟩
/-- The result: positions × batch × (heads · features). -/
abbrev POut : Shape := ⟨3, ![2048, 1, 768]⟩

theorem bphf_transposes : BPHF.Transposes [0, 2, 1, 3] BHPF := by decide
theorem bhpf_casts : BHPF.ShapeCasts HPF := by decide
theorem hpf_transposes : HPF.Transposes [1, 0, 2] PHF := by decide
theorem phf_casts : PHF.ShapeCasts POut := by decide

/-- An argument re-laid head-major. -/
def relay (x : BPHF.Idx → EReal) : HPF.Idx → EReal :=
  shapeCast HPF (transpose BHPF [0, 2, 1, 3] x bphf_transposes) bhpf_casts

/-- A head-major array settled into the result's layout. -/
def settle (y : HPF.Idx → EReal) : POut.Idx → EReal :=
  shapeCast POut (transpose PHF [1, 0, 2] y hpf_transposes) phf_casts

/-- The result of both programs: the settled attention of the re-laid arguments under the mask. -/
def result (query key value : BPHF.Idx → EReal) (mask : HQK.Idx → EReal) : POut.Idx → EReal :=
  settle (attention (relay query) (relay key) (relay value) mask)

end MaskedAttention

end
-- ==== Proof.KernelArray.lean ====
/-
  From the grid's blocks to the kernel's whole result. The grid is 12 heads × 8 blocks of 256 query positions. At point
  `(h, b)` the body sees query rows `256·b … 256·b + 255` of head `h`, the head's whole key and value matrices and the
  same rows of the head's mask, and writes rows `256·b …` of head `h` of the output: what it writes is that block of
  `attention` of the four arrays as the region finds them. The 96 blocks tile the output, so after the run the output
  array is `attention` of them; the three re-laid arrays are what the host lines before the region computed from the
  arguments, and the host lines after it settle the output into the result.
-/
import proofs.«146029_g20229295964910_cont_8to1_1205_4_alg».proof.Proof.Gen.KernelIdeal.Frame
import proofs.«146029_g20229295964910_cont_8to1_1205_4_alg».proof.Proof.KernelRow
import proofs.«146029_g20229295964910_cont_8to1_1205_4_alg».proof.Proof.AttnWhole
import Idealize.ShloMosaic.Lib.Pipeline.Value
import Idealize.ShloMosaic.Lib.StableHlo.Run

set_option maxRecDepth 16384

noncomputable section

namespace MaskedAttention.KernelRun

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- A block read row by row is the whole array read at the rows' places: if the block's query row, key and value
    matrices and mask row are those of the arrays at index `i`'s head and position, and `i`'s feature is `d`, the row
    function of the block is `attention` of the arrays at `i`. -/
theorem attention_of_blocks (Q Kk Vv : HPF.Idx → EReal) (M : HQK.Idx → EReal)
    (b0 : (⟨3, ![1, 256, 64]⟩ : Shape).Idx → EReal) (b1 b2 : (⟨3, ![1, 2048, 64]⟩ : Shape).Idx → EReal)
    (b3 : (⟨3, ![1, 256, 2048]⟩ : Shape).Idx → EReal) (i : HPF.Idx) (r : Fin 256) (d : Fin 64)
    (h0 : ∀ e, b0 (ix3 (0 : Fin 1) r e) = Q (ix3 (i 0) (i 1) e))
    (h1 : ∀ t e, b1 (ix3 (0 : Fin 1) t e) = Kk (ix3 (i 0) t e))
    (h2 : ∀ t e, b2 (ix3 (0 : Fin 1) t e) = Vv (ix3 (i 0) t e))
    (h3 : ∀ t, b3 (ix3 (0 : Fin 1) r t) = M (ix3 (i 0) (i 1) t))
    (hd : i 2 = d) :
    attendRow (fun e => b0 (ix3 (0 : Fin 1) r e)) (fun t e => b1 (ix3 (0 : Fin 1) t e)) (fun t e => b2 (ix3 (0 : Fin 1) t e))
        (fun t => b3 (ix3 (0 : Fin 1) r t)) d
      = attention Q Kk Vv M i := by
  unfold attention
  simp only [h0, h1, h2, h3, hd]

variable (m : (ℓ : Loc nD τ sig) → Buf (Elt Ideal) ℓ) (ρ : Dev nD → PrngReg)

theorem offsets_zero : (![0, 0, 0] : Fin 3 → Nat) = fun _ => 0 := funext fun a => by fin_cases a <;> rfl

/-- The printed index maps, decided over the 96 points: the query, mask and output blocks move together over heads and
    row blocks, the key and value blocks over heads only, and no block moves along the last axis. -/
theorem index_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_4.index t (0 : Fin 3) ≤ 11 ∧ win0_4.index t (1 : Fin 3) ≤ 7 ∧ win0_4.index t (2 : Fin 3) = 0 :=
  (by decide +kernel : ∀ t : Fin grid0.N, _)

/-- Every head and row block is some point's. -/
theorem index_onto : ∀ (q0 : Fin 12) (q1 : Fin 8), ∃ t : Fin cfg0.N, win0_4.index t = ![q0.val, q1.val, 0] :=
  (by decide +kernel : ∀ (q0 : Fin 12) (q1 : Fin 8), ∃ t : Fin grid0.N, win0_4.index t = ![q0.val, q1.val, 0])

/-- WHAT POINT `t` WRITES BACK is its block of `attention` of the four arrays as the region finds them. -/
theorem flushed_eq (c : Dev nD) (t : Fin cfg0.N) :
    (dats m 0 c).flushed 4 t = ((cfg0.win 4).blk t).view.read (Elt Ideal)
      (attention (V m c main_v1) (V m c main_v3) (V m c main_v5) (V m c main_arg3)) := by
  show (cfg0.win 4).cut (grid0.coords t) ((dats m 0 c).after 4 t) = _
  rw [after0_4]
  unfold out0_4
  rw [View.canon_unit_zero offsets_zero]
  simp only [View.ld_unit_zero (S := S1x256x64) offsets_zero, View.ld_unit_zero (S := S1x2048x64) offsets_zero,
    View.ld_unit_zero (S := S1x256x2048) offsets_zero]
  obtain ⟨e00, e01, e02, e10, e11, e12, e20, e21, e22, e30, e31, e32, b0, b1, e42⟩ := index_facts t
  funext j
  obtain ⟨u, r, d, rfl⟩ : ∃ (u : Fin 1) (r : Fin 256) (d : Fin 64), j = ix3 u r d := ⟨j 0, j 1, j 2, eq_ix3 j⟩
  obtain rfl : u = 0 := Subsingleton.elim _ _
  show k0_pay1 (F := Ideal) (iblk m c 0 t) (iblk m c 1 t) (iblk m c 2 t) (iblk m c 3 t) (ix3 (0 : Fin 1) r d)
    = attention (V m c main_v1) (V m c main_v3) (V m c main_v5) (V m c main_arg3) (((cfg0.win 4).blk t).view.emb (ix3 (0 : Fin 1) r d))
  refine (Kernel.payload_apply (iblk m c 0 t) (iblk m c 1 t) (iblk m c 2 t) (iblk m c 3 t) r d).trans ?_
  refine attention_of_blocks (V m c main_v1) (V m c main_v3) (V m c main_v5) (V m c main_arg3)
    (iblk m c 0 t) (iblk m c 1 t) (iblk m c 2 t) (iblk m c 3 t) (((cfg0.win 4).blk t).view.emb (ix3 (0 : Fin 1) r d)) r d ?_ ?_ ?_ ?_ ?_
  · intro e
    show V m c main_v1 (((cfg0.win 0).blk t).view.emb (ix3 (0 : Fin 1) r e)) = V m c main_v1 _
    refine congrArg (V m c main_v1) (funext fun a => Fin.ext ?_)
    match a with
    | ⟨0, _⟩ => show win0_0.index t (0 : Fin 3) * 1 + 1 * 0 = win0_4.index t (0 : Fin 3) * 1 + 1 * 0; omega
    | ⟨1, _⟩ => show win0_0.index t (1 : Fin 3) * 256 + 1 * r.val = win0_4.index t (1 : Fin 3) * 256 + 1 * r.val; omega
    | ⟨2, _⟩ => show win0_0.index t (2 : Fin 3) * 64 + 1 * e.val = e.val; omega
  · intro k e
    show V m c main_v3 (((cfg0.win 1).blk t).view.emb (ix3 (0 : Fin 1) k e)) = V m c main_v3 _
    refine congrArg (V m c main_v3) (funext fun a => Fin.ext ?_)
    match a with
    | ⟨0, _⟩ => show win0_1.index t (0 : Fin 3) * 1 + 1 * 0 = win0_4.index t (0 : Fin 3) * 1 + 1 * 0; omega
    | ⟨1, _⟩ => show win0_1.index t (1 : Fin 3) * 2048 + 1 * k.val = k.val; omega
    | ⟨2, _⟩ => show win0_1.index t (2 : Fin 3) * 64 + 1 * e.val = e.val; omega
  · intro k e
    show V m c main_v5 (((cfg0.win 2).blk t).view.emb (ix3 (0 : Fin 1) k e)) = V m c main_v5 _
    refine congrArg (V m c main_v5) (funext fun a => Fin.ext ?_)
    match a with
    | ⟨0, _⟩ => show win0_2.index t (0 : Fin 3) * 1 + 1 * 0 = win0_4.index t (0 : Fin 3) * 1 + 1 * 0; omega
    | ⟨1, _⟩ => show win0_2.index t (1 : Fin 3) * 2048 + 1 * k.val = k.val; omega
    | ⟨2, _⟩ => show win0_2.index t (2 : Fin 3) * 64 + 1 * e.val = e.val; omega
  · intro k
    show V m c main_arg3 (((cfg0.win 3).blk t).view.emb (ix3 (0 : Fin 1) r k)) = V m c main_arg3 _
    refine congrArg (V m c main_arg3) (funext fun a => Fin.ext ?_)
    match a with
    | ⟨0, _⟩ => show win0_3.index t (0 : Fin 3) * 1 + 1 * 0 = win0_4.index t (0 : Fin 3) * 1 + 1 * 0; omega
    | ⟨1, _⟩ => show win0_3.index t (1 : Fin 3) * 256 + 1 * r.val = win0_4.index t (1 : Fin 3) * 256 + 1 * r.val; omega
    | ⟨2, _⟩ => show win0_3.index t (2 : Fin 3) * 2048 + 1 * k.val = k.val; omega
  · refine Fin.ext ?_
    show win0_4.index t (2 : Fin 3) * 64 + 1 * d.val = d.val
    omega

/-- An index of the output array is in point `t`'s block iff each coordinate is in the block's range on its axis. -/
theorem mem_block (t : Fin cfg0.N) (i : S12x2048x64.Idx) :
    i ∈ ((cfg0.win 4).blk t).view.set ↔ ∀ a : Fin 3, win0_4.index t a * S1x256x64.size a ≤ (i a).val
      ∧ (i a).val < win0_4.index t a * S1x256x64.size a + S1x256x64.size a := by
  show i ∈ ((View.whole main_v6).slice (win0_4.rect t)).set ↔ _
  rw [View.set_slice_whole, Rect.mem_set_unit]
  exact Iff.rfl

/-- The blocks tile the output: index `(h, p, d)` is in the block of head `h` and row block `p / 256`. -/
theorem covered (i : S12x2048x64.Idx) :
    ∃ t : Fin cfg0.N, (cfg0.win 4).flush t = true ∧ i ∈ ((cfg0.win 4).blk t).view.set := by
  have hi0 : (i 0).val < 12 := (i 0).isLt
  have hi1 : (i 1).val < 2048 := (i 1).isLt
  have hi2 : (i 2).val < 64 := (i 2).isLt
  obtain ⟨t, ht⟩ := index_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 64 ≤ (i 2).val ∧ (i 2).val < win0_4.index t (2 : Fin 3) * 64 + 64; omega

/-- THE OUTPUT ARRAY after the run: `attention` of the four arrays as the region finds them. -/
theorem output_eq (c : Dev nD) :
    (dats m 0 c).arrAt 4 cfg0.N = attention (V m c main_v1) (V m c main_v3) (V m c main_v5) (V m c main_arg3) :=
  (dats m 0 c).arrAt_eq_of_cover 4 _ (fun t _ => flushed_eq m c t) covered

/-! ## The host lines before and after the region -/

/-- The region finds the query re-laid head-major. -/
theorem V_query (c : Dev nD) : V m c main_v1 = relay (m ((c : Thread nD τ).loc main_arg0)) := by
  show StableHlo.after hostOps0 (fun b => m (c, b)) (Proc.devRef .tc main_v1) = _
  after_results
  rfl
/-- The region finds the key re-laid head-major. -/
theorem V_key (c : Dev nD) : V m c main_v3 = relay (m ((c : Thread nD τ).loc main_arg1)) := by
  show StableHlo.after hostOps0 (fun b => m (c, b)) (Proc.devRef .tc main_v3) = _
  after_results
  rfl
/-- The region finds the value re-laid head-major. -/
theorem V_value (c : Dev nD) : V m c main_v5 = relay (m ((c : Thread nD τ).loc main_arg2)) := by
  show StableHlo.after hostOps0 (fun b => m (c, b)) (Proc.devRef .tc main_v5) = _
  after_results
  rfl

/-- The lines after the region settle the output array into @main's result: `result` of the four arguments. -/
theorem tail_eq (c : Dev nD) :
    Pipeline.afterTail₀ cfgs (dats m) 0 (V0 m) [hostOps1] c main_v8
      = result (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v8) = _
  after_results
  rw [Pipeline.withArrays_arr spec0 launch0.win.arr_inj c _ _ 4, output_eq, V_query, V_key, V_value, V_main_arg3]
  rfl

/-- THE KERNEL'S RUN: every weakly fair execution terminates with @main's result at `result` of the arguments, the
    arguments unchanged. -/
theorem run : θ_run defs (onTc (τ := τ) (main (F := Ideal))) ⟨m, fun _ => 0, ρ⟩ fun r => ∀ c : Dev nD,
      r.2.mem ((c.tc : Thread nD τ).loc main_v8)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).2 main_v8 (Pipeline.mem_restRefs_of main_v8 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).1 3).trans (((dats m 0 c).arrAt_in 3 rfl _).trans ((A_eq m c 3).trans (V_main_arg3 m c)))⟩)
    (run_main m ρ)

end MaskedAttention.KernelRun

end
-- ==== Proof.RefRow.lean ====
/-
  The reference's attention, read stage by stage at an index: the masked logits, the row maximum, the numerators, the
  denominator, the weights and the weighted sum of value rows are the row functions of `MaskedAttention`, so the
  product the reference transposes and reshapes into its result is `attention` of its three re-laid inputs and the mask.
  The reference divides the scores by `8.0` where the specification multiplies by `0.125` (one value on every extended
  real), starts its sum from a zero it adds, and takes the row maximum once more against `-∞` (the identity).
-/
import proofs.«146029_g20229295964910_cont_8to1_1205_4_alg».proof.Proof.Gen.ReferenceIdeal.Read
import proofs.«146029_g20229295964910_cont_8to1_1205_4_alg».proof.Proof.AttnSpec
import proofs.«146029_g20229295964910_cont_8to1_1205_4_alg».proof.Proof.Consts
import Idealize.ShloMosaic.PureOps.Ideal.Laws
import Idealize.ShloMosaic.Lib.ValueIdx

noncomputable section

namespace MaskedAttention.Reference

open Idealize.ShloMosaic Idealize.ShloMosaic.ValueIdx
open Cert.ReferenceIdeal Cert.ReferenceIdeal.Gen Cert.ReferenceIdeal.Read

variable (x0 x1 x2 : (⟨S1x2048x12x64, .f32⟩ : BufTy).Contents (Elt Ideal))
  (x3 : (⟨S12x2048x2048, .f32⟩ : BufTy).Contents (Elt Ideal))

/-- Head `h`'s query row `r` of the re-laid query. -/
abbrev qrow (h : Fin 12) (r : Fin 2048) : Fin 64 → EReal := fun e => val_main_v1 (F := Ideal) x0 (ix3 h r e)
/-- Head `h`'s key matrix. -/
abbrev kmat (h : Fin 12) : Fin 2048 → Fin 64 → EReal := fun t e => val_main_v3 (F := Ideal) x1 (ix3 h t e)
/-- Head `h`'s value matrix. -/
abbrev vmat (h : Fin 12) : Fin 2048 → Fin 64 → EReal := fun t e => val_main_v5 (F := Ideal) x2 (ix3 h t e)
/-- The mask row of head `h`, query position `r`. -/
abbrev mrow (h : Fin 12) (r : Fin 2048) : Fin 2048 → EReal := fun t => x3 (ix3 h r t)

/-- The masked scores are the logits. -/
theorem logit_eq (h : Fin 12) (r t : Fin 2048) :
    val_main_v11 (F := Ideal) x0 x1 x3 (ix3 h r t) = logit (qrow x0 h r) (kmat x1 h) (mrow x3 h r) t := by
  have el : ∀ k : Fin 64, lidx_main_v6 (ix3 h r t) k = ix3 h r k := fun k => funext fun a => by
    match a with | ⟨0, _⟩ => rfl | ⟨1, _⟩ => rfl | ⟨2, _⟩ => rfl
  have er : ∀ k : Fin 64, ridx_main_v6 (ix3 h r t) k = ix3 h t k := fun k => funext fun a => by
    match a with | ⟨0, _⟩ => rfl | ⟨1, _⟩ => rfl | ⟨2, _⟩ => rfl
  rw [val_main_v11_apply, val_main_v10_apply, val_main_v9_apply, val_main_cst_0_apply, val_main_v8_apply, val_main_v7_apply,
    val_main_cst_apply, val_main_v6_apply, val_main_call0_v1_apply, val_main_call0_v0_apply, val_main_cst_1_apply]
  simp only [el, er, Ideal.ofBits_def, Ideal.hostDivf_def, Consts.div_eight]
  rfl

/-- The row maximum, taken from `-∞` and once more against `-∞`, is the row's top. -/
theorem top_eq (h : Fin 12) (r : Fin 2048) :
    val_main_v14 (F := Ideal) x0 x1 x3 (ix2 h r) = top (qrow x0 h r) (kmat x1 h) (mrow x3 h r) := by
  have hR : S12x2048x2048.Reduces [2] S12x2048 := by decide
  rw [val_main_v14_apply, val_main_v13_apply, val_main_cst_3_apply]
  unfold val_main_v12
  rw [Host.reduce_eq_fold_single FloatOps.maximumf _ _ reducesTo_S12x2048x2048_S12x2048_d2 hR h_S_]
  have hf : (val_main_v11 (F := Ideal) x0 x1 x3 ∘ hR.lift (ix2 h r)) = logit (qrow x0 h r) (kmat x1 h) (mrow x3 h r) :=
    funext fun (k : Fin 2048) => by
      show val_main_v11 (F := Ideal) x0 x1 x3 (hR.lift (ix2 h r) k) = _
      rw [show hR.lift (ix2 h r) k = ix3 h r k from funext fun a => Fin.ext (by
        match a with | ⟨0, _⟩ => rfl | ⟨1, _⟩ => rfl | ⟨2, _⟩ => rfl), logit_eq]
  rw [hf]
  show max (Ideal.ofBits .f32 0xFF800000#32) (Finset.univ.fold max (Ideal.ofBits .f32 0xFF800000#32) _) = _
  rw [Consts.ofBits_neg_inf]
  unfold top
  exact max_eq_right bot_le

/-- The exponentials of the shifted scores are the numerators. -/
theorem numer_eq (h : Fin 12) (r t : Fin 2048) :
    val_main_v18 (F := Ideal) x0 x1 x3 (ix3 h r t) = numer (qrow x0 h r) (kmat x1 h) (mrow x3 h r) t := by
  rw [val_main_v18_apply, val_main_v17_apply, val_main_v16_apply, val_main_v15_apply,
    show idx_main_v15 (idx_main_v16 (ix3 h r t)) = ix2 h r from funext fun a => by
      match a with | ⟨0, _⟩ => rfl | ⟨1, _⟩ => rfl,
    logit_eq, top_eq]
  rfl

/-- Their sum over the key positions, from a zero, is the denominator. -/
theorem denom_eq (h : Fin 12) (r : Fin 2048) :
    val_main_v19 (F := Ideal) x0 x1 x3 (ix2 h r) = denom (qrow x0 h r) (kmat x1 h) (mrow x3 h r) := by
  rw [val_main_v19_apply, val_main_cst_4_apply]
  show Ideal.ofBits .f32 0x00000000#32 + _ = _
  rw [Consts.ofBits_zero, zero_add]
  unfold denom
  refine Finset.sum_congr rfl fun k _ => ?_
  rw [show idx_main_v19 (ix2 h r) k = ix3 h r k from funext fun a => by
    match a with | ⟨0, _⟩ => rfl | ⟨1, _⟩ => rfl | ⟨2, _⟩ => rfl, numer_eq]

/-- The masked quotients are the weights. -/
theorem weight_eq (h : Fin 12) (r t : Fin 2048) :
    val_main_v25 (F := Ideal) x0 x1 x3 (ix3 h r t) = weight (qrow x0 h r) (kmat x1 h) (mrow x3 h r) t := by
  rw [val_main_v25_apply, val_main_v24_apply, val_main_v23_apply, val_main_cst_5_apply, val_main_v22_apply, val_main_v21_apply,
    val_main_v20_apply,
    show idx_main_v20 (idx_main_v21 (ix3 h r t)) = ix2 h r from funext fun a => by
      match a with | ⟨0, _⟩ => rfl | ⟨1, _⟩ => rfl,
    numer_eq, denom_eq, val_main_call1_v1_apply, val_main_call1_v0_apply, val_main_cst_6_apply]
  rfl

/-- The weights times the head's value matrix: the reference's product is `attention` of its re-laid inputs. -/
theorem product_eq :
    val_main_v26 (F := Ideal) x0 x1 x2 x3
      = attention (val_main_v1 (F := Ideal) x0) (val_main_v3 (F := Ideal) x1) (val_main_v5 (F := Ideal) x2) x3 := by
  funext i
  obtain ⟨h, r, d, rfl⟩ : ∃ (h : Fin 12) (r : Fin 2048) (d : Fin 64), i = ix3 h r d := ⟨i 0, i 1, i 2, eq_ix3 i⟩
  rw [val_main_v26_apply, attention_apply]
  unfold attendRow
  refine Finset.sum_congr rfl fun k _ => ?_
  rw [show lidx_main_v26 (ix3 h r d) k = ix3 h r k from funext fun a => by
      match a with | ⟨0, _⟩ => rfl | ⟨1, _⟩ => rfl | ⟨2, _⟩ => rfl,
    show ridx_main_v26 (ix3 h r d) k = ix3 h k d from funext fun a => by
      match a with | ⟨0, _⟩ => rfl | ⟨1, _⟩ => rfl | ⟨2, _⟩ => rfl,
    weight_eq]

end MaskedAttention.Reference

end
-- ==== Proof.RefResult.lean ====
/-
  The reference's result as one function of its arguments: its last two lines swap head and position back and lay each
  position's heads side by side, which is `settle`; what they settle is `attention` of the re-laid arguments
  (`MaskedAttention.Reference.product_eq`); and its first six lines are `relay` of the query, key and value.
-/
import proofs.«146029_g20229295964910_cont_8to1_1205_4_alg».proof.Proof.RefRow
import proofs.«146029_g20229295964910_cont_8to1_1205_4_alg».proof.Proof.AttnWhole

noncomputable section

namespace MaskedAttention.Reference

open Idealize.ShloMosaic
open Cert.ReferenceIdeal Cert.ReferenceIdeal.Gen Cert.ReferenceIdeal.Read

/-- THE REFERENCE'S RESULT is `result` of its four arguments. -/
theorem result_eq (x0 x1 x2 : (⟨S1x2048x12x64, .f32⟩ : BufTy).Contents (Elt Ideal))
    (x3 : (⟨S12x2048x2048, .f32⟩ : BufTy).Contents (Elt Ideal)) :
    val_main_v28 (F := Ideal) x0 x1 x2 x3 = result x0 x1 x2 x3 := by
  unfold val_main_v28 val_main_v27
  rw [product_eq]
  rfl

end MaskedAttention.Reference

end
-- ==== Proof.lean ====
/-
  Fused masked attention against its dense reference, over the extended reals.

  Both programs re-lay the query, key and value head-major, form for every head the scores of each query position against
  each key position, scale them (the kernel multiplies by 0.125 where the reference divides by 8.0: one value on every
  extended real), replace the scores of masked-out positions by -1e9, take the softmax along the key positions (row
  maximum, exponentials, their sum, the quotient), put zero back at the masked-out positions, multiply with the values,
  and settle the product into the result's layout. The kernel does it block by block — 12 heads × 8 blocks of 256 query
  rows, each against the head's whole keys and values — on the matrix and vector units; the reference on whole arrays.
  Every sum on either side is a finite sum of the same terms, and every other operation is the same function of the same
  operands, so the two results are one function, `MaskedAttention.result`, of the four arguments; the precondition is not
  needed for the equality. The frames of the two kernels are the generated ones; the reference's frame is its run with
  the result forgotten; the idealization rewrote nothing, so `preserves` has nothing to state.
-/
import proofs.«146029_g20229295964910_cont_8to1_1205_4_alg».proof.Defs
import proofs.«146029_g20229295964910_cont_8to1_1205_4_alg».proof.Proof.Gen.Kernel
import proofs.«146029_g20229295964910_cont_8to1_1205_4_alg».proof.Proof.Gen.Kernel.Skeleton
import proofs.«146029_g20229295964910_cont_8to1_1205_4_alg».proof.Proof.Gen.Kernel.Launch
import proofs.«146029_g20229295964910_cont_8to1_1205_4_alg».proof.Proof.Gen.Kernel.Points
import proofs.«146029_g20229295964910_cont_8to1_1205_4_alg».proof.Proof.Gen.Kernel.Frame
import proofs.«146029_g20229295964910_cont_8to1_1205_4_alg».proof.Proof.Gen.KernelIdeal
import proofs.«146029_g20229295964910_cont_8to1_1205_4_alg».proof.Proof.Gen.KernelIdeal.Skeleton
import proofs.«146029_g20229295964910_cont_8to1_1205_4_alg».proof.Proof.Gen.KernelIdeal.Launch
import proofs.«146029_g20229295964910_cont_8to1_1205_4_alg».proof.Proof.Gen.KernelIdeal.Points
import proofs.«146029_g20229295964910_cont_8to1_1205_4_alg».proof.Proof.Gen.KernelIdeal.Frame
import proofs.«146029_g20229295964910_cont_8to1_1205_4_alg».proof.Proof.Gen.ReferenceIdeal
import proofs.«146029_g20229295964910_cont_8to1_1205_4_alg».proof.Proof.Gen.Pre_finite_inputs
import proofs.«146029_g20229295964910_cont_8to1_1205_4_alg».proof.Proof.Gen.ReferenceIdeal.Run
import proofs.«146029_g20229295964910_cont_8to1_1205_4_alg».proof.Proof.Gen.ReferenceIdeal.Read
import proofs.«146029_g20229295964910_cont_8to1_1205_4_alg».proof.Proof.KernelArray
import proofs.«146029_g20229295964910_cont_8to1_1205_4_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference runs to its result with its arguments unchanged; the frame forgets the result. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with `MaskedAttention.result` of the arguments. -/
theorem algebraic : Cert.algebraic_KernelIdeal_ReferenceIdeal := by
  intro m ρ m' ρ' _ hagree
  refine ⟨_, MaskedAttention.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, MaskedAttention.Reference.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
